-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048 : Shape := ⟨1, ![2048]⟩
abbrev S100x4x128 : Shape := ⟨3, ![100, 4, 128]⟩
abbrev S100x4x128x128 : Shape := ⟨4, ![100, 4, 128, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100x4x128 : S_.BroadcastsInDim S100x4x128 (![] : Fin 0 → Fin S100x4x128.rank)
  reducesTo_S100x4x128_S_d0_1_2 : S100x4x128.ReducesTo [0, 1, 2] S_
  bcast_S_S100x4x128x128 : S_.BroadcastsInDim S100x4x128x128 (![] : Fin 0 → Fin S100x4x128x128.rank)
  reducesTo_S100x4x128x128_S_d0_1_2_3 : S100x4x128x128.ReducesTo [0, 1, 2, 3] S_

variable [Facts]

def fn {F : FTy → Type} [FloatOps F] (main_arg0 : FVec F S2048x128 .f32) (main_arg1 : IVec S2048 32) (main_arg2 : FVec F S100x4x128 .f32) (main_arg3 : FVec F S100x4x128x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100x4x128 .f32 := Host.absf main_arg2
  let main_cst_0 : FVec F S_ .f32 := constant S_ .f32 0x7F800000#32
  let main_v5 : FVec F S100x4x128 .f32 := broadcastInDim S100x4x128 ![] bcast_S_S100x4x128 main_cst_0
  let main_v6 : IVec S100x4x128 1 := cmpf .olt main_v4 main_v5
  let main_c_1 : IVec S_ 1 := constantI S_ 1 1#1
  let main_v7 : IVec S_ 1 := (fun x v => Host.reduce IntOp.andi x v reducesTo_S100x4x128_S_d0_1_2 h_S_) main_v6 main_c_1
  let main_v8 : IVec S_ 1 := andi main_v3 main_v7
  let main_v9 : FVec F S100x4x128x128 .f32 := Host.absf main_arg3
  let main_cst_2 : FVec F S_ .f32 := constant S_ .f32 0x7F800000#32
  let main_v10 : FVec F S100x4x128x128 .f32 := broadcastInDim S100x4x128x128 ![] bcast_S_S100x4x128x128 main_cst_2
  let main_v11 : IVec S100x4x128x128 1 := cmpf .olt main_v9 main_v10
  let main_c_3 : IVec S_ 1 := constantI S_ 1 1#1
  let main_v12 : IVec S_ 1 := (fun x v => Host.reduce IntOp.andi x v reducesTo_S100x4x128x128_S_d0_1_2_3 h_S_) main_v11 main_c_3
  let main_v13 : IVec S_ 1 := andi main_v8 main_v12
  main_v13
-- ==== Kernel.lean ====
abbrev S2048x128 : Shape := ⟨2, ![2048, 128]⟩
abbrev S2048 : Shape := ⟨1, ![2048]⟩
abbrev S100x4x128 : Shape := ⟨3, ![100, 4, 128]⟩
abbrev S100x4x128x128 : Shape := ⟨4, ![100, 4, 128, 128]⟩
abbrev S1x4x128 : Shape := ⟨3, ![1, 4, 128]⟩
abbrev S4x128 : Shape := ⟨2, ![4, 128]⟩
abbrev S2048x1 : Shape := ⟨2, ![2048, 1]⟩
abbrev S1x4x128x128 : Shape := ⟨4, ![1, 4, 128, 128]⟩
abbrev S1x128 : Shape := ⟨2, ![1, 128]⟩
abbrev S128 : Shape := ⟨1, ![128]⟩
abbrev S128x128 : Shape := ⟨2, ![128, 128]⟩
abbrev S1x1x128x128 : Shape := ⟨4, ![1, 1, 128, 128]⟩

abbrev nBuf : Space → Nat
  | .hbm => 8
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S100x4x128, .f32⟩
  | .hbm, ⟨3, _⟩ => ⟨S100x4x128x128, .f32⟩
  | .hbm, ⟨4, _⟩ => ⟨S1x4x128, .f32⟩
  | .hbm, ⟨5, _⟩ => ⟨S4x128, .f32⟩
  | .hbm, ⟨6, _⟩ => ⟨S2048x1, .i32⟩
  | .hbm, ⟨7, _⟩ => ⟨S100x4x128x128, .f32⟩
  | .local _ .vmem, ⟨0, _⟩ => ⟨S2048x128, .f32⟩
  | .local _ .vmem, ⟨1, _⟩ => ⟨S4x128, .f32⟩
  | .local _ .vmem, ⟨2, _⟩ => ⟨S2048x1, .i32⟩
  | .local _ .vmem, ⟨3, _⟩ => ⟨S1x4x128x128, .f32⟩
  | .local _ .vmem, ⟨4, _⟩ => ⟨S1x4x128x128, .f32⟩
  | .local _ .vmem, ⟨5, _⟩ => ⟨S1x4x128x128, .f32⟩
  | .local _ .vmem, ⟨6, _⟩ => ⟨S1x4x128x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S100x4x128_S1x4x128_0_0_0 : S100x4x128.Slices ![0, 0, 0] S1x4x128
  shapeCasts_S1x4x128_S4x128 : S1x4x128.ShapeCasts S4x128
  shapeCasts_S2048_S2048x1 : S2048.ShapeCasts S2048x1
  inb_S2048x128_S2048x128_0_0 : ∀ a, (![0, 0] : Fin 2 → Nat) a + S2048x128.size a ≤ S2048x128.size a
  h_S2048x128 : 0 < S2048x128.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  natLt_1_32 : 1 < 32
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S2048x128 : S1x128.Broadcasts S2048x128
  broadcasts_S2048x1_S2048x128 : S2048x1.Broadcasts S2048x128
  bitsLt_bf16_f32 : FTy.bits .bf16 < FTy.bits .f32
  inb_S1x4x128x128_S1x1x128x128_0_0_0_0 : ∀ a, (![0, 0, 0, 0] : Fin 4 → Nat) a + S1x1x128x128.size a ≤ S1x4x128x128.size a
  h_S1x1x128x128 : 0 < S1x1x128x128.numel
  shapeCasts_S1x1x128x128_S128x128 : S1x1x128x128.ShapeCasts S128x128
  shapeCasts_S128x128_S1x1x128x128 : S128x128.ShapeCasts S1x1x128x128
  inb_S4x128_S1x128_1_0 : ∀ a, (![1, 0] : Fin 2 → Nat) a + S1x128.size a ≤ S4x128.size a
  inb_S1x4x128x128_S1x1x128x128_0_1_0_0 : ∀ a, (![0, 1, 0, 0] : Fin 4 → Nat) a + S1x1x128x128.size a ≤ S1x4x128x128.size a
  inb_S4x128_S1x128_2_0 : ∀ a, (![2, 0] : Fin 2 → Nat) a + S1x128.size a ≤ S4x128.size a
  inb_S1x4x128x128_S1x1x128x128_0_2_0_0 : ∀ a, (![0, 2, 0, 0] : Fin 4 → Nat) a + S1x1x128x128.size a ≤ S1x4x128x128.size a
  inb_S4x128_S1x128_3_0 : ∀ a, (![3, 0] : Fin 2 → Nat) a + S1x128.size a ≤ S4x128.size a
  inb_S1x4x128x128_S1x1x128x128_0_3_0_0 : ∀ a, (![0, 3, 0, 0] : Fin 4 → Nat) a + S1x1x128x128.size a ≤ S1x4x128x128.size a
  dot_S2048x128_S2048x128_S128x128_0_0_1_1_n_n_wf : DotDims.WF S2048x128 S2048x128 S128x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .f32 = 32 ∨ (Rect.block (s := S2048x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2048x1.size a
  hwx0_2 : ∀ i : grid0.Coords, EltTy.bits .i32 = 32 ∨ (Rect.block (s := S2048x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x128x128.size a ≤ S100x4x128x128.size a
  hwx0_3 : ∀ i : grid0.Coords, EltTy.bits .f32 = 32 ∨ (Rect.block (s := S100x4x128x128) S1x4x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x128x128.size a ≤ S100x4x128x128.size a
  hwx0_4 : ∀ i : grid0.Coords, EltTy.bits .f32 = 32 ∨ (Rect.block (s := S100x4x128x128) S1x4x128x128.size (cc0_transform_4 i) (hinb0_4 i)).WholeWords (EltTy.packing .f32)

variable [Facts₀]

def dot_S2048x128_S2048x128_S128x128_0_0_1_1_n_n : DotDims S2048x128 S2048x128 S128x128 where
  lhsContracting := [0]
  rhsContracting := [0]
  lhsNonContracting := [1]
  rhsNonContracting := [1]
  lhsBatch := []
  rhsBatch := []
  wf := dot_S2048x128_S2048x128_S128x128_0_0_1_1_n_n_wf

abbrev win0_0 : Pipeline.Window sig grid0 :=
  Pipeline.Window.ofSpec (Memref.whole main_arg0) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x128 : Shape := ⟨2, ![2048, 128]⟩
abbrev S2048 : Shape := ⟨1, ![2048]⟩
abbrev S100x4x128 : Shape := ⟨3, ![100, 4, 128]⟩
abbrev S100x4x128x128 : Shape := ⟨4, ![100, 4, 128, 128]⟩
abbrev S2048x1x128 : Shape := ⟨3, ![2048, 1, 128]⟩
abbrev S1x4x128 : Shape := ⟨3, ![1, 4, 128]⟩
abbrev S4x128 : Shape := ⟨2, ![4, 128]⟩
abbrev S2048x4x128 : Shape := ⟨3, ![2048, 4, 128]⟩
abbrev S2048x4x128x1 : Shape := ⟨4, ![2048, 4, 128, 1]⟩
abbrev S2048x4x1x128 : Shape := ⟨4, ![2048, 4, 1, 128]⟩
abbrev S2048x4x128x128 : Shape := ⟨4, ![2048, 4, 128, 128]⟩
abbrev S2048x65536 : Shape := ⟨2, ![2048, 65536]⟩
abbrev S_ : Shape := ⟨0, ![]⟩
abbrev S100x65536 : Shape := ⟨2, ![100, 65536]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048, .i32⟩
  | .hbm, ⟨2, _⟩ => ⟨S100x4x128, .f32⟩
  | .hbm, ⟨3, _⟩ => ⟨S100x4x128x128, .f32⟩
  | .hbm, ⟨4, _⟩ => ⟨S2048x1x128, .f32⟩
  | .hbm, ⟨5, _⟩ => ⟨S1x4x128, .f32⟩
  | .hbm, ⟨6, _⟩ => ⟨S4x128, .f32⟩
  | .hbm, ⟨7, _⟩ => ⟨S1x4x128, .f32⟩
  | .hbm, ⟨8, _⟩ => ⟨S2048x4x128, .f32⟩
  | .hbm, ⟨9, _⟩ => ⟨S2048x4x128, .f32⟩
  | .hbm, ⟨10, _⟩ => ⟨S2048x4x128, .f32⟩
  | .hbm, ⟨11, _⟩ => ⟨S2048x4x128x1, .f32⟩
  | .hbm, ⟨12, _⟩ => ⟨S2048x4x1x128, .f32⟩
  | .hbm, ⟨13, _⟩ => ⟨S2048x4x128x128, .f32⟩
  | .hbm, ⟨14, _⟩ => ⟨S2048x4x128x128, .f32⟩
  | .hbm, ⟨15, _⟩ => ⟨S2048x4x128x128, .f32⟩
  | .hbm, ⟨16, _⟩ => ⟨S2048x65536, .f32⟩
  | .hbm, ⟨17, _⟩ => ⟨S_, .f32⟩
  | .hbm, ⟨18, _⟩ => ⟨S100x65536, .f32⟩
  | .hbm, ⟨19, _⟩ => ⟨S2048x1, .i32⟩
  | .hbm, ⟨20, _⟩ => ⟨S100x65536, .f32⟩
  | .hbm, ⟨21, _⟩ => ⟨S100x4x128x128, .f32⟩
  | .hbm, ⟨22, _⟩ => ⟨S100x4x128x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  bcast_S2048x128_S2048x1x128_0_2 : S2048x128.BroadcastsInDim S2048x1x128 (![0, 2] : Fin 2 → Fin S2048x1x128.rank)
  slices_S100x4x128_S1x4x128_0_0_0 : S100x4x128.Slices ![0, 0, 0] S1x4x128
  shapeCasts_S1x4x128_S4x128 : S1x4x128.ShapeCasts S4x128
  bcast_S4x128_S1x4x128_1_2 : S4x128.BroadcastsInDim S1x4x128 (![1, 2] : Fin 2 → Fin S1x4x128.rank)
  bcast_S2048x1x128_S2048x4x128_0_1_2 : S2048x1x128.BroadcastsInDim S2048x4x128 (![0, 1, 2] : Fin 3 → Fin S2048x4x128.rank)
  bcast_S1x4x128_S2048x4x128_0_1_2 : S1x4x128.BroadcastsInDim S2048x4x128 (![0, 1, 2] : Fin 3 → Fin S2048x4x128.rank)
  bcast_S2048x4x128_S2048x4x128x1_0_1_2 : S2048x4x128.BroadcastsInDim S2048x4x128x1 (![0, 1, 2] : Fin 3 → Fin S2048x4x128x1.rank)
  bcast_S2048x4x128_S2048x4x1x128_0_1_3 : S2048x4x128.BroadcastsInDim S2048x4x1x128 (![0, 1, 3] : Fin 3 → Fin S2048x4x1x128.rank)
  bcast_S2048x4x128x1_S2048x4x128x128_0_1_2_3 : S2048x4x128x1.BroadcastsInDim S2048x4x128x128 (![0, 1, 2, 3] : Fin 4 → Fin S2048x4x128x128.rank)
  bcast_S2048x4x1x128_S2048x4x128x128_0_1_2_3 : S2048x4x1x128.BroadcastsInDim S2048x4x128x128 (![0, 1, 2, 3] : Fin 4 → Fin S2048x4x128x128.rank)
  shapeCasts_S2048x4x128x128_S2048x65536 : S2048x4x128x128.ShapeCasts S2048x65536
  bcast_S_S100x65536 : S_.BroadcastsInDim S100x65536 (![] : Fin 0 → Fin S100x65536.rank)
  bcast_S2048_S2048x1_0 : S2048.BroadcastsInDim S2048x1 (![0] : Fin 1 → Fin S2048x1.rank)
  shapeCasts_S100x65536_S100x4x128x128 : S100x65536.ShapeCasts S100x4x128x128
  scatter_S100x65536_S2048x1_S2048x65536_1_0_0_1_wf : ScatterDims.WF S100x65536 S2048x1 S2048x65536 [1] [0] [0] 1

variable [Facts₀]

def scatter_S100x65536_S2048x1_S2048x65536_1_0_0_1 : ScatterDims S100x65536 S2048x1 S2048x65536 where
  updateWindowDims := [1]
  insertedWindowDims := [0]
  scatterDimsToOperandDims := [0]
  indexVectorDim := 1
  wf := scatter_S100x65536_S2048x1_S2048x65536_1_0_0_1_wf

class Facts : Prop extends Facts₀ where

variable [Facts]
-- ==== Proof.KernelCore.lean ====
/-
  The kernel body's arithmetic, read at an index at the ideal values.

  For one class `c` (the grid position) and one centre `m` the body forms the centred samples
  `d[b, h] = x[b, h] - mu[m, h]`, masks them by `1[y[b] = c]`, and contracts the batch axis of the masked rows against
  the unmasked ones on the matrix unit into a zero accumulator, then adds the covariance block:
  `out[p, q] = cov[p, q] + ∑ b, (d[b, p] · 1[y[b] = c]) · d[b, q]`. At the extended reals the two bf16 roundings are the
  identity and the matrix product is the plain sum over the batch. The mask is `0` or `1`, and on the extended reals
  `a · 0 = 0` and `a · 1 = a` for every `a`, so each summand is `d[b, p] · d[b, q]` where `y[b] = c` and `0` elsewhere.
  The four centres are the same function of the centre's row of `mu` and slab of `cov` (`core`).
-/
import proofs.«403243_j47614007444058_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

variable {F : FTy → Type} [FloatOps F]

/-- The dimension numbers of the body's product: batch axis against batch axis. -/
abbrev D : DotDims S2048x128 S2048x128 S128x128 := dot_S2048x128_S2048x128_S128x128_0_0_1_1_n_n

/-- The samples centred at one centre's row of `mu`. -/
def centred (x0 : Vec F S2048x128 .f32) (mu1 : Vec F S1x128 .f32) : FVec F S2048x128 .f32 :=
  subf x0 (broadcastTo S2048x128 (shapeCast S1x128 (shapeCast S128 mu1 shapeCasts_S1x128_S128) shapeCasts_S128_S1x128)
    broadcasts_S1x128_S2048x128)

/-- One centre's result: the covariance slab plus the masked centred samples contracted over the batch against the
    centred samples. -/
def core (x0 : Vec F S2048x128 .f32) (mk : FVec F S2048x1 .f32) (mu1 : Vec F S1x128 .f32)
    (cv : Vec F S1x1x128x128 .f32) : FVec F S128x128 .f32 :=
  addf (shapeCast S128x128 cv shapeCasts_S1x1x128x128_S128x128)
    (matmul D none
      (truncf .bf16 (mulf (centred x0 mu1) (broadcastTo S2048x128 mk broadcasts_S2048x1_S2048x128)) bitsLt_bf16_f32)
      (truncf .bf16 (centred x0 mu1) bitsLt_bf16_f32) (constant S128x128 .f32 0x00000000#32))

/-- The body's payloads are `core`, stored as a `[1, 1, 128, 128]` slab. -/
theorem pay3_eq (i : grid0.Coords) (x0 : Vec F S2048x128 .f32) (x2 : Vec F S2048x1 .i32) (mu1 : Vec F S1x128 .f32)
    (cv : Vec F S1x1x128x128 .f32) :
    k0_pay3 i x0 x2 mu1 cv = shapeCast S1x1x128x128 (core x0 (k0_pay2 i x2) mu1 cv) shapeCasts_S128x128_S1x1x128x128 := rfl
theorem pay4_eq (i : grid0.Coords) (x0 : Vec F S2048x128 .f32) (x2 : Vec F S2048x1 .i32) (mu1 : Vec F S1x128 .f32)
    (cv : Vec F S1x1x128x128 .f32) : k0_pay4 i x0 x2 mu1 cv = core x0 (k0_pay2 i x2) mu1 cv := rfl
theorem pay5_eq (v : FVec F S128x128 .f32) :
    k0_pay5 v = shapeCast S1x1x128x128 v shapeCasts_S128x128_S1x1x128x128 := rfl
theorem pay6_eq (x0 : Vec F S2048x128 .f32) (mk : FVec F S2048x1 .f32) (mu1 : Vec F S1x128 .f32)
    (cv : Vec F S1x1x128x128 .f32) :
    k0_pay6 x0 mk mu1 cv = shapeCast S1x1x128x128 (core x0 mk mu1 cv) shapeCasts_S128x128_S1x1x128x128 := rfl
theorem pay7_eq (x0 : Vec F S2048x128 .f32) (mk : FVec F S2048x1 .f32) (mu1 : Vec F S1x128 .f32)
    (cv : Vec F S1x1x128x128 .f32) : k0_pay7 x0 mk mu1 cv = core x0 mk mu1 cv := rfl
theorem pay1_eq (v : FVec F S128x128 .f32) :
    k0_pay1 v = shapeCast S1x1x128x128 v shapeCasts_S128x128_S1x1x128x128 := rfl

/-! ## The operand indices of the product -/

theorem lhs_0 (i : S128x128.Idx) (q : D.contr.Idx) : (D.lhsIdx i q 0).val = (q ⟨0, by decide⟩).val :=
  D.lhsIdx_val_of_single rfl i q
theorem lhs_1 (i : S128x128.Idx) (q : D.contr.Idx) : (D.lhsIdx i q 1).val = (i 0).val := by
  unfold DotDims.lhsIdx
  rw [dif_neg (show ¬(1 : Fin S2048x128.rank) ∈ D.lhsBatch by decide), dif_pos (show (1 : Fin S2048x128.rank) ∈ D.lhsNonContracting by decide)]
  rfl
theorem rhs_0 (i : S128x128.Idx) (q : D.contr.Idx) : (D.rhsIdx i q 0).val = (q ⟨0, by decide⟩).val :=
  D.rhsIdx_val_of_single rfl i q
theorem rhs_1 (i : S128x128.Idx) (q : D.contr.Idx) : (D.rhsIdx i q 1).val = (i 1).val := by
  unfold DotDims.rhsIdx
  rw [dif_neg (show ¬(1 : Fin S2048x128.rank) ∈ D.rhsBatch by decide), dif_pos (show (1 : Fin S2048x128.rank) ∈ D.rhsNonContracting by decide)]
  rfl

/-! ## The pieces at an index -/

/-- A centred sample: row `k`, column `h`, less the centre's column `h`. -/
theorem centred_apply (x0 : Vec Ideal S2048x128 .f32) (mu1 : Vec Ideal S1x128 .f32) (k : Fin 2048) (h : Fin 128) :
    centred (F := Ideal) x0 mu1 (ix2 k h) = x0 (ix2 k h) - mu1 (ix2 ⟨0, Nat.one_pos⟩ h) := by
  unfold centred
  rw [subf_apply, shapeCast_shapeCast]
  congr 1
  exact broadcastTo_apply mu1 broadcasts_S1x128_S2048x128 (ix2 k h) (ix2 ⟨0, Nat.one_pos⟩ h) (fun a => match a with
    | ⟨0, _⟩ => by show 0 = if (1 : Nat) = 1 then 0 else _; rw [if_pos rfl]
    | ⟨1, _⟩ => by show h.val = if (128 : Nat) = 1 then 0 else h.val; rw [if_neg (by decide)])

/-- The mask's column, spread over the row. -/
theorem maskcol_apply (mk : FVec Ideal S2048x1 .f32) (k : Fin 2048) (h : Fin 128) :
    broadcastTo S2048x128 mk broadcasts_S2048x1_S2048x128 (ix2 k h) = mk (ix2 k ⟨0, Nat.one_pos⟩) :=
  broadcastTo_apply mk broadcasts_S2048x1_S2048x128 (ix2 k h) (ix2 k ⟨0, Nat.one_pos⟩) (fun a => match a with
    | ⟨0, _⟩ => by show k.val = if (2048 : Nat) = 1 then 0 else k.val; rw [if_neg (by decide)]
    | ⟨1, _⟩ => by show 0 = if (1 : Nat) = 1 then 0 else _; rw [if_pos rfl])

/-- The covariance slab as a matrix. -/
theorem slab_apply (cv : Vec Ideal S1x1x128x128 .f32) (p q : Fin 128) :
    shapeCast S128x128 cv shapeCasts_S1x1x128x128_S128x128 (ix2 p q)
      = cv (ix4 ⟨0, Nat.one_pos⟩ ⟨0, Nat.one_pos⟩ p q) :=
  shapeCast_apply cv shapeCasts_S1x1x128x128_S128x128 (ix2 p q) (ix4 ⟨0, Nat.one_pos⟩ ⟨0, Nat.one_pos⟩ p q)
    (by rewrite [Shape.rowMajor_val_four, Shape.rowMajor_val_two]
        show ((0 * 1 + 0) * 128 + p.val) * 128 + q.val = p.val * 128 + q.val; omega)

/-- ONE CENTRE'S RESULT AT `(p, q)`: the slab there plus the sum over the batch of the masked centred sample's column
    `p` times the centred sample's column `q`. -/
theorem core_apply (x0 : Vec Ideal S2048x128 .f32) (mk : FVec Ideal S2048x1 .f32) (mu1 : Vec Ideal S1x128 .f32)
    (cv : Vec Ideal S1x1x128x128 .f32) (p q : Fin 128) :
    core (F := Ideal) x0 mk mu1 cv (ix2 p q)
      = cv (ix4 ⟨0, Nat.one_pos⟩ ⟨0, Nat.one_pos⟩ p q)
        + ∑ k : Fin 2048, ((x0 (ix2 k p) - mu1 (ix2 ⟨0, Nat.one_pos⟩ p)) * mk (ix2 k ⟨0, Nat.one_pos⟩))
            * (x0 (ix2 k q) - mu1 (ix2 ⟨0, Nat.one_pos⟩ q)) := by
  unfold core
  rw [addf_apply, slab_apply]
  congr 1
  refine (Ideal.matmul_constant_zero_apply D none _ _ (ix2 p q)).trans ?_
  rw [← Equiv.sum_comp (contrEquiv1 D 2048 rfl rfl).symm]
  refine Finset.sum_congr rfl fun k _ => ?_
  have hk := contrEquiv1_symm_val D 2048 rfl rfl k
  have el : D.lhsIdx (ix2 p q) ((contrEquiv1 D 2048 rfl rfl).symm k) = ix2 k p := funext fun a => Fin.ext (by
    match a with
    | ⟨0, _⟩ => exact (lhs_0 _ _).trans hk
    | ⟨1, _⟩ => exact lhs_1 _ _)
  have er : D.rhsIdx (ix2 p q) ((contrEquiv1 D 2048 rfl rfl).symm k) = ix2 k q := funext fun a => Fin.ext (by
    match a with
    | ⟨0, _⟩ => exact (rhs_0 _ _).trans hk
    | ⟨1, _⟩ => exact rhs_1 _ _)
  rw [el, er, truncf_apply, truncf_apply, mulf_apply, centred_apply, centred_apply, maskcol_apply]

/-- THE MASK at row `k`: one where the label is the grid position, zero elsewhere. -/
theorem mask_apply (i : grid0.Coords) (x2 : Vec Ideal S2048x1 .i32) (k : Fin 2048) :
    k0_pay2 (F := Ideal) i x2 (ix2 k ⟨0, Nat.one_pos⟩)
      = if x2 (ix2 k ⟨0, Nat.one_pos⟩) = BitVec.ofNat 32 (i 0).val then (1 : EReal) else 0 := by
  unfold k0_pay2
  rw [shapeCast_self]
  show (((BitVec.setWidth 32 (IntOp.cmpi .eq (x2 (ix2 k ⟨0, Nat.one_pos⟩)) (BitVec.ofNat 32 (i 0).val))).toInt : ℝ) : EReal) = _
  unfold IntOp.cmpi
  by_cases h : x2 (ix2 k ⟨0, Nat.one_pos⟩) = BitVec.ofNat 32 (i 0).val
  · rw [if_pos h, beq_iff_eq.mpr h]
    show (((BitVec.setWidth 32 (1#1)).toInt : ℝ) : EReal) = 1
    rw [show (BitVec.setWidth 32 (1#1)).toInt = 1 from by decide]
    simp
  · rw [if_neg h, beq_eq_false_iff_ne.mpr h]
    show (((BitVec.setWidth 32 (0#1)).toInt : ℝ) : EReal) = 0
    rw [show (BitVec.setWidth 32 (0#1)).toInt = 0 from by decide]
    simp

end Cert.KernelIdeal.Hand

end
-- ==== Proof.Spec.lean ====
/-
  The specification both programs meet: class-wise covariance accumulation.

  Inputs: samples `x : [2048, 128]`, integer labels `y : [2048]`, centres `mu : [100, 4, 128]` (only class 0's four
  centres are read), covariances `cov : [100, 4, 128, 128]`. With the centred sample `d[b, m, h] = x[b, h] - mu[0, m, h]`,
  the result at class `c`, centre `m`, entry `(p, q)` is
  `cov[c, m, p, q] + ∑ b, (d[b, m, p] · d[b, m, q] where y[b] = c, else 0)`:
  the sum over the whole batch of the outer products of the samples labelled `c`. A label outside `[0, 100)` equals no
  class and its sample contributes nowhere. The label is compared as a signed integer; for a class `c < 100` that is
  the same as the label's word being the word of `c`.
-/
import Idealize.ShloMosaic.PureOps.Ideal
import Idealize.ShloMosaic.Lib.ValueIdx

noncomputable section

open scoped BigOperators

namespace Cert.ClassCov

open Idealize.ShloMosaic Idealize.ShloMosaic.ValueIdx

/-- The centred sample `x[b, h] - mu[0, m, h]`. -/
def dev (x : (⟨2, ![2048, 128]⟩ : Shape).Idx → EReal) (mu : (⟨3, ![100, 4, 128]⟩ : Shape).Idx → EReal)
    (b : Fin 2048) (m : Fin 4) (h : Fin 128) : EReal :=
  x (ix2 b h) - mu (ix3 ⟨0, by decide⟩ m h)

/-- The result at class `c`, centre `m`, entry `(p, q)`. -/
def covAt (x : (⟨2, ![2048, 128]⟩ : Shape).Idx → EReal) (y : (⟨1, ![2048]⟩ : Shape).Idx → BitVec 32)
    (mu : (⟨3, ![100, 4, 128]⟩ : Shape).Idx → EReal) (cov : (⟨4, ![100, 4, 128, 128]⟩ : Shape).Idx → EReal)
    (c : Fin 100) (m : Fin 4) (p q : Fin 128) : EReal :=
  cov (ix4 c m p q) + ∑ b : Fin 2048, if (y (ix1 b)).toInt = (c.val : Int) then dev x mu b m p * dev x mu b m q else 0

/-- The result array. -/
def G (x : (⟨2, ![2048, 128]⟩ : Shape).Idx → EReal) (y : (⟨1, ![2048]⟩ : Shape).Idx → BitVec 32)
    (mu : (⟨3, ![100, 4, 128]⟩ : Shape).Idx → EReal) (cov : (⟨4, ![100, 4, 128, 128]⟩ : Shape).Idx → EReal) :
    (⟨4, ![100, 4, 128, 128]⟩ : Shape).Idx → EReal :=
  fun i => covAt x y mu cov (i 0) (i 1) (i 2) (i 3)

theorem G_ix4 (x : (⟨2, ![2048, 128]⟩ : Shape).Idx → EReal) (y : (⟨1, ![2048]⟩ : Shape).Idx → BitVec 32)
    (mu : (⟨3, ![100, 4, 128]⟩ : Shape).Idx → EReal) (cov : (⟨4, ![100, 4, 128, 128]⟩ : Shape).Idx → EReal)
    (c : Fin 100) (m : Fin 4) (p q : Fin 128) : G x y mu cov (ix4 c m p q) = covAt x y mu cov c m p q := rfl

/-- A 32-bit word read signed is the small natural `c` exactly when it is `c`'s word. -/
theorem toInt_eq_iff (w : BitVec 32) (c : Nat) (hc : c < 100) : w.toInt = (c : Int) ↔ w = BitVec.ofNat 32 c := by
  have hc' : (BitVec.ofNat 32 c).toInt = (c : Int) := by
    have hn : (BitVec.ofNat 32 c).toNat = c := by
      rw [BitVec.toNat_ofNat]; exact Nat.mod_eq_of_lt (by omega)
    rw [BitVec.toInt_eq_toNat_of_lt (by rw [hn]; omega), hn]
  rw [← hc']
  exact BitVec.toInt_inj

/-- A masked product is the product where the mask is one and zero where it is zero: on the extended reals
    `a · 1 = a`, `a · 0 = 0` and `0 · a = 0` for every `a`, infinite ones included. -/
theorem masked_mul (a b : EReal) (C : Prop) [Decidable C] :
    (a * (if C then (1 : EReal) else 0)) * b = if C then a * b else 0 := by
  by_cases h : C
  · rw [if_pos h, if_pos h, mul_one]
  · rw [if_neg h, if_neg h, mul_zero, zero_mul]

end Cert.ClassCov

end
-- ==== Proof.KernelValue.lean ====
/-
  The idealized kernel's result array is the specification.

  Grid point `t` is class `t`. Its output block `[1, 4, 128, 128]` is written by four stores, one per centre `m`, each the
  centre's result (KernelCore) of the whole sample block, the whole label column, row `m` of the centres' block and slab
  `m` of the covariance block: together ONE function of the block index (`blockFn`). The sample, label and centre windows
  are whole arrays at every point; the covariance window's block at point `t` is slab `t` of `cov`, as the output's is of
  the result. The centres' array is class 0's rows of `mu` and the label column the labels, by the host operations before
  the call. With the mask read as "the label's word is `t`'s", which for `t < 100` is "the label, read signed, is `t`", point
  `t` writes slab `t` of the specification, and the 100 slabs cover the result array.
-/
import proofs.«403243_j47614007444058_1_alg».proof.Proof.KernelIdealValue
import proofs.«403243_j47614007444058_1_alg».proof.Proof.KernelCore
import proofs.«403243_j47614007444058_1_alg».proof.Proof.Spec
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Hand

open Cert.KernelIdeal Cert.KernelIdeal.Gen Cert.KernelIdeal.GenP Cert.KernelIdeal.ValueP Cert.ClassCov
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## The output block as one function of its index -/

/-- The output block at centre `mm`, entry `(p, q)`: the covariance block there plus the batch sum of the masked products. -/
def blockAt (i : grid0.Coords) (x0 : Vec Ideal S2048x128 .f32) (x1 : Vec Ideal S4x128 .f32) (x2 : Vec Ideal S2048x1 .i32)
    (x3 : Vec Ideal S1x4x128x128 .f32) (mm : Fin 4) (p q : Fin 128) : EReal :=
  x3 (ix4 ⟨0, Nat.one_pos⟩ mm p q)
    + ∑ k : Fin 2048, ((x0 (ix2 k p) - x1 (ix2 mm p))
          * (if x2 (ix2 k ⟨0, Nat.one_pos⟩) = BitVec.ofNat 32 (i 0).val then (1 : EReal) else 0))
        * (x0 (ix2 k q) - x1 (ix2 mm q))

/-- The output block. -/
def blockFn (i : grid0.Coords) (x0 : Vec Ideal S2048x128 .f32) (x1 : Vec Ideal S4x128 .f32) (x2 : Vec Ideal S2048x1 .i32)
    (x3 : Vec Ideal S1x4x128x128 .f32) : S1x4x128x128.Idx → EReal :=
  fun y => blockAt i x0 x1 x2 x3 (y 1) (y 2) (y 3)

/-- One store's payload — the centre's result over row `mm` of the centres' block and slab `mm` of the covariance block —
    is the block function on the store's slab. -/
theorem slabPiece (i : grid0.Coords) (x0 : Vec Ideal S2048x128 .f32) (x1 : Vec Ideal S4x128 .f32) (x2 : Vec Ideal S2048x1 .i32)
    (x3 : Vec Ideal S1x4x128x128 .f32) (mm : Fin 4) (mo : Fin 2 → Nat) (co : Fin 4 → Nat)
    (hmo : mo = ![mm.val, 0]) (hco : co = ![0, mm.val, 0, 0])
    (inbm : ∀ a, mo a + S1x128.size a ≤ S4x128.size a) (inbc : ∀ a, co a + S1x1x128x128.size a ≤ S1x4x128x128.size a)
    (xx : S1x1x128x128.Idx) :
    shapeCast S1x1x128x128 (core (F := Ideal) x0 (k0_pay2 i x2) (View.ld x1 (Rect.unit (s := S4x128) mo S1x128.size inbm))
        (View.ld x3 (Rect.unit (s := S1x4x128x128) co S1x1x128x128.size inbc))) shapeCasts_S128x128_S1x1x128x128 xx
      = blockFn i x0 x1 x2 x3 ((Rect.unit (s := S1x4x128x128) co S1x1x128x128.size inbc).emb xx) := by
  subst hmo hco
  obtain ⟨a, b, p, q, rfl⟩ : ∃ (a b : Fin 1) (p q : Fin 128), xx = ix4 a b p q := ⟨xx 0, xx 1, xx 2, xx 3, eq_ix4 xx⟩
  obtain rfl : a = ⟨0, Nat.one_pos⟩ := Subsingleton.elim _ _
  obtain rfl : b = ⟨0, Nat.one_pos⟩ := Subsingleton.elim _ _
  have hm := mm.isLt
  have hemb : (Rect.unit (s := S1x4x128x128) ![0, mm.val, 0, 0] S1x1x128x128.size inbc).emb (ix4 ⟨0, Nat.one_pos⟩ ⟨0, Nat.one_pos⟩ p q)
      = ix4 ⟨0, Nat.one_pos⟩ mm p q := funext fun a => Fin.ext (by
    match a with
    | ⟨0, _⟩ => show 0 + 1 * 0 = 0; omega
    | ⟨1, _⟩ => show mm.val + 1 * 0 = mm.val; omega
    | ⟨2, _⟩ => show 0 + 1 * p.val = p.val; omega
    | ⟨3, _⟩ => show 0 + 1 * q.val = q.val; omega)
  have hrow : ∀ h : Fin 128, (Rect.unit (s := S4x128) ![mm.val, 0] S1x128.size inbm).idx (ix2 ⟨0, Nat.one_pos⟩ h) = ix2 mm h :=
    fun h => funext fun a => Fin.ext (by
      match a with
      | ⟨0, _⟩ => show mm.val + 1 * 0 = mm.val; omega
      | ⟨1, _⟩ => show 0 + 1 * h.val = h.val; omega)
  rw [hemb, shapeCast_apply _ shapeCasts_S128x128_S1x1x128x128 (ix4 ⟨0, Nat.one_pos⟩ ⟨0, Nat.one_pos⟩ p q) (ix2 p q)
    (by rewrite [Shape.rowMajor_val_four, Shape.rowMajor_val_two]
        show p.val * 128 + q.val = ((0 * 1 + 0) * 128 + p.val) * 128 + q.val; omega), core_apply]
  show _ = blockAt i x0 x1 x2 x3 mm p q
  unfold blockAt
  congr 1
  · show x3 ((Rect.unit (s := S1x4x128x128) ![0, mm.val, 0, 0] S1x1x128x128.size inbc).emb (ix4 ⟨0, Nat.one_pos⟩ ⟨0, Nat.one_pos⟩ p q)) = _
    rw [hemb]
  · refine Finset.sum_congr rfl fun k _ => ?_
    rw [mask_apply]
    show ((x0 (ix2 k p) - x1 ((Rect.unit (s := S4x128) ![mm.val, 0] S1x128.size inbm).idx (ix2 ⟨0, Nat.one_pos⟩ p))) * _)
      * (x0 (ix2 k q) - x1 ((Rect.unit (s := S4x128) ![mm.val, 0] S1x128.size inbm).idx (ix2 ⟨0, Nat.one_pos⟩ q))) = _
    rw [hrow, hrow]

/-- WHAT THE BODY LEAVES IN THE OUTPUT BLOCK is the block function of the input blocks, at every index. -/
theorem out_apply (i : grid0.Coords) (x0 : Vec Ideal S2048x128 .f32) (x1 : Vec Ideal S4x128 .f32) (x2 : Vec Ideal S2048x1 .i32)
    (x3 : Vec Ideal S1x4x128x128 .f32) (y : S1x4x128x128.Idx) :
    out0_4 (F := Ideal) i x0 x1 x2 x3 y = blockFn i x0 x1 x2 x3 y := by
  unfold out0_4
  simp only [View.ld_unit_zero (S := S2048x128) hz2, View.ld_unit_zero (S := S2048x1) hz2]
  refine View.canon_apply_of_pieces (Val := Elt Ideal) (e := .f32) (blockFn i x0 x1 x2 x3) _ ?_ y (cover0_4 _ _ _ _ y)
  intro pc hpc xx
  simp only [List.mem_cons, List.not_mem_nil, or_false] at hpc
  rcases hpc with rfl | rfl | rfl | rfl
  · show k0_pay1 (k0_pay7 x0 (k0_pay2 i x2) (View.ld x1 r0_8) (View.ld x3 r0_9)) xx = _
    rw [pay1_eq, pay7_eq]
    exact slabPiece i x0 x1 x2 x3 3 _ _ rfl rfl _ _ xx
  · show k0_pay6 x0 (k0_pay2 i x2) (View.ld x1 r0_6) (View.ld x3 r0_7) xx = _
    rw [pay6_eq]
    exact slabPiece i x0 x1 x2 x3 2 _ _ rfl rfl _ _ xx
  · show k0_pay5 (k0_pay4 i x0 x2 (View.ld x1 r0_4) (View.ld x3 r0_5)) xx = _
    rw [pay5_eq, pay4_eq]
    exact slabPiece i x0 x1 x2 x3 1 _ _ rfl rfl _ _ xx
  · show k0_pay3 i x0 x2 (View.ld x1 r0_2) (View.ld x3 r0_3) xx = _
    rw [pay3_eq]
    exact slabPiece i x0 x1 x2 x3 0 _ _ rfl rfl _ _ xx

end Cert.KernelIdeal.Hand

end
-- ==== Proof.KernelRun.lean ====
/-
  The idealized kernel's run, read: the result array ends at the specification.

  What grid point `t` writes back is slab `t` of the specification of the argument arrays (KernelValue's block function with
  each window's block read off its array), and the 100 slabs cover the result.
-/
import proofs.«403243_j47614007444058_1_alg».proof.Proof.KernelValue

set_option maxRecDepth 16384

noncomputable section

open scoped BigOperators

namespace Cert.KernelIdeal.Hand

open Cert.KernelIdeal Cert.KernelIdeal.Gen Cert.KernelIdeal.GenP Cert.KernelIdeal.ValueP Cert.ClassCov
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays as launched. -/
abbrev X (c : Dev nD) : S2048x128.Idx → EReal := m ((c : Thread nD τ).loc main_arg0)
abbrev Y (c : Dev nD) : S2048.Idx → BitVec 32 := m ((c : Thread nD τ).loc main_arg1)
abbrev MU (c : Dev nD) : S100x4x128.Idx → EReal := m ((c : Thread nD τ).loc main_arg2)
abbrev COV (c : Dev nD) : S100x4x128x128.Idx → EReal := m ((c : Thread nD τ).loc main_arg3)

/-- The grid has 100 points. -/
theorem lt_100 (t : Fin cfg0.N) : t.val < 100 := lt_of_lt_of_eq t.isLt (show cfg0.N = 100 from N_0)

/-- The grid position of point `t` is `t`. -/
theorem coords_val : ∀ t : Fin cfg0.N, ((grid0.coords t) 0).val = t.val :=
  (by decide +kernel : ∀ t : Fin grid0.N, ((grid0.coords t) 0).val = t.val)

/-- The printed index maps over the grid: the sample, centre and label windows stay at block 0; the covariance and
    result windows are at block `t` of the class axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0
    ∧ win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-! ## The arrays the host operations write before the call -/

/-- The centres' array is class 0's rows of `mu`. -/
theorem V_v1 (c : Dev nD) : (V m c main_v1 : S4x128.Idx → EReal)
    = shapeCast S4x128 (extractStridedSlice S1x4x128 ![0, 0, 0] (MU m c) slices_S100x4x128_S1x4x128_0_0_0) shapeCasts_S1x4x128_S4x128 := by
  dsimp only [V, hostOps0]; after_results; rfl

theorem v1_apply (c : Dev nD) (mm : Fin 4) (h : Fin 128) :
    (V m c main_v1 : S4x128.Idx → EReal) (ix2 mm h) = MU m c (ix3 ⟨0, by decide⟩ mm h) := by
  rw [V_v1, shapeCast_apply _ shapeCasts_S1x4x128_S4x128 (ix2 mm h) (ix3 ⟨0, Nat.one_pos⟩ mm h)
    (by rewrite [Shape.rowMajor_val_three, Shape.rowMajor_val_two]
        show (0 * 4 + mm.val) * 128 + h.val = mm.val * 128 + h.val; omega)]
  exact extractStridedSlice_apply ![0, 0, 0] (MU m c) slices_S100x4x128_S1x4x128_0_0_0 (ix3 ⟨0, Nat.one_pos⟩ mm h)
    (ix3 ⟨0, by decide⟩ mm h) (fun a => match a with
      | ⟨0, _⟩ => by show 0 = 0 + 0; omega
      | ⟨1, _⟩ => by show mm.val = 0 + mm.val; omega
      | ⟨2, _⟩ => by show h.val = 0 + h.val; omega)

/-- The label column is the labels. -/
theorem V_v2 (c : Dev nD) : (V m c main_v2 : S2048x1.Idx → BitVec 32)
    = shapeCast S2048x1 (Y m c) shapeCasts_S2048_S2048x1 := by
  dsimp only [V, hostOps0]; after_results; rfl

theorem v2_apply (c : Dev nD) (k : Fin 2048) :
    (V m c main_v2 : S2048x1.Idx → BitVec 32) (ix2 k ⟨0, Nat.one_pos⟩) = Y m c (ix1 k) := by
  rw [V_v2]
  exact shapeCast_apply _ shapeCasts_S2048_S2048x1 (ix2 k ⟨0, Nat.one_pos⟩) (ix1 k)
    (by rewrite [Shape.rowMajor_val_one, Shape.rowMajor_val_two]
        show k.val = k.val * 1 + 0; omega)

/-! ## Each window's block at a point, read off its array -/

theorem iblk0_apply (c : Dev nD) (t : Fin cfg0.N) (k : Fin 2048) (h : Fin 128) :
    (iblk m c 0 t : Vec Ideal S2048x128 .f32) (ix2 k h) = X m c (ix2 k h) := by
  obtain ⟨e0, e1, -⟩ := idx_facts t
  unfold iblk
  rw [View.read_apply]
  show V m c main_arg0 _ = _
  rw [V_main_arg0]
  show (m ((c : Thread nD τ).loc main_arg0) : S2048x128.Idx → EReal) _ = (m ((c : Thread nD τ).loc main_arg0) : S2048x128.Idx → EReal) _
  congr 1
  funext a; apply Fin.ext
  match a with
  | ⟨0, _⟩ => show win0_0.index t 0 * 2048 + 1 * k.val = k.val; rw [e0]; omega
  | ⟨1, _⟩ => show win0_0.index t 1 * 128 + 1 * h.val = h.val; rw [e1]; omega

theorem iblk1_apply (c : Dev nD) (t : Fin cfg0.N) (mm : Fin 4) (h : Fin 128) :
    (iblk m c 1 t : Vec Ideal S4x128 .f32) (ix2 mm h) = MU m c (ix3 ⟨0, by decide⟩ mm h) := by
  obtain ⟨-, -, e0, e1, -⟩ := idx_facts t
  rw [← v1_apply m c mm h]
  unfold iblk
  rw [View.read_apply]
  show (V m c main_v1 : S4x128.Idx → EReal) _ = (V m c main_v1 : S4x128.Idx → EReal) _
  congr 1
  funext a; apply Fin.ext
  match a with
  | ⟨0, _⟩ => show win0_1.index t 0 * 4 + 1 * mm.val = mm.val; rw [e0]; omega
  | ⟨1, _⟩ => show win0_1.index t 1 * 128 + 1 * h.val = h.val; rw [e1]; omega

theorem iblk2_apply (c : Dev nD) (t : Fin cfg0.N) (k : Fin 2048) :
    (iblk m c 2 t : Vec Ideal S2048x1 .i32) (ix2 k ⟨0, Nat.one_pos⟩) = Y m c (ix1 k) := by
  obtain ⟨-, -, -, -, e0, e1, -⟩ := idx_facts t
  rw [← v2_apply m c k]
  unfold iblk
  rw [View.read_apply]
  show (V m c main_v2 : S2048x1.Idx → BitVec 32) _ = (V m c main_v2 : S2048x1.Idx → BitVec 32) _
  congr 1
  funext a; apply Fin.ext
  match a with
  | ⟨0, _⟩ => show win0_2.index t 0 * 2048 + 1 * k.val = k.val; rw [e0]; omega
  | ⟨1, _⟩ => show win0_2.index t 1 * 1 + 1 * 0 = 0; rw [e1]

theorem iblk3_apply (c : Dev nD) (t : Fin cfg0.N) (mm : Fin 4) (p q : Fin 128) :
    (iblk m c 3 t : Vec Ideal S1x4x128x128 .f32) (ix4 ⟨0, Nat.one_pos⟩ mm p q) = COV m c (ix4 ⟨t.val, lt_100 t⟩ mm p q) := by
  obtain ⟨-, -, -, -, -, -, e0, e1, e2, e3, -⟩ := idx_facts t
  unfold iblk
  rw [View.read_apply]
  show V m c main_arg3 _ = _
  rw [V_main_arg3]
  show (m ((c : Thread nD τ).loc main_arg3) : S100x4x128x128.Idx → EReal) _ = (m ((c : Thread nD τ).loc main_arg3) : S100x4x128x128.Idx → EReal) _
  congr 1
  funext a; apply Fin.ext
  match a with
  | ⟨0, _⟩ => show win0_3.index t 0 * 1 + 1 * 0 = t.val; rw [e0]; omega
  | ⟨1, _⟩ => show win0_3.index t 1 * 4 + 1 * mm.val = mm.val; rw [e1]; omega
  | ⟨2, _⟩ => show win0_3.index t 2 * 128 + 1 * p.val = p.val; rw [e2]; omega
  | ⟨3, _⟩ => show win0_3.index t 3 * 128 + 1 * q.val = q.val; rw [e3]; omega

/-! ## What a point writes, and the array -/

/-- The block function of point `t`'s input blocks is slab `t` of the specification. -/
theorem point_eq (c : Dev nD) (t : Fin cfg0.N) (mm : Fin 4) (p q : Fin 128) :
    blockAt (grid0.coords t) (iblk m c 0 t) (iblk m c 1 t) (iblk m c 2 t) (iblk m c 3 t) mm p q
      = covAt (X m c) (Y m c) (MU m c) (COV m c) ⟨t.val, lt_100 t⟩ mm p q := by
  unfold blockAt covAt
  rw [iblk3_apply]
  congr 1
  refine Finset.sum_congr rfl fun k _ => ?_
  rw [iblk0_apply, iblk0_apply, iblk1_apply, iblk1_apply, iblk2_apply, masked_mul, coords_val]
  exact if_congr (toInt_eq_iff _ _ (lt_100 t)).symm rfl rfl

/-- WHAT POINT `t` WRITES BACK is block `t` of the specification of the argument arrays. -/
theorem flushed_eq (c : Dev nD) (t : Fin cfg0.N) :
    (dats m 0 c).flushed 4 t = ((cfg0.win 4).blk t).view.read (Elt Ideal) (G (X m c) (Y m c) (MU m c) (COV m c)) := by
  obtain ⟨-, -, -, -, -, -, -, -, -, -, e0, e1, e2, e3⟩ := idx_facts t
  rw [flushed4]
  funext j
  show out0_4 (grid0.coords t) (iblk m c 0 t) (iblk m c 1 t) (iblk m c 2 t) (iblk m c 3 t) j
    = G (X m c) (Y m c) (MU m c) (COV m c) (((cfg0.win 4).blk t).view.emb j)
  refine (out_apply (grid0.coords t) (iblk m c 0 t) (iblk m c 1 t) (iblk m c 2 t) (iblk m c 3 t) j).trans ?_
  show blockAt (grid0.coords t) (iblk m c 0 t) (iblk m c 1 t) (iblk m c 2 t) (iblk m c 3 t) (j 1) (j 2) (j 3) = _
  refine (point_eq m c t (j 1) (j 2) (j 3)).trans ?_
  refine (G_ix4 (X m c) (Y m c) (MU m c) (COV m c) ⟨t.val, lt_100 t⟩ (j 1) (j 2) (j 3)).symm.trans ?_
  have h0 : (j 0).val < 1 := (j 0).isLt
  refine congrArg (G (X m c) (Y m c) (MU m c) (COV m c)) (funext fun a => Fin.ext ?_)
  match a with
  | ⟨0, _⟩ => show t.val = win0_4.index t 0 * 1 + 1 * (j 0).val; rw [e0]; omega
  | ⟨1, _⟩ => show (j 1).val = win0_4.index t 1 * 4 + 1 * (j 1).val; rw [e1]; omega
  | ⟨2, _⟩ => show (j 2).val = win0_4.index t 2 * 128 + 1 * (j 2).val; rw [e2]; omega
  | ⟨3, _⟩ => show (j 3).val = win0_4.index t 3 * 128 + 1 * (j 3).val; rw [e3]; omega

/-- An index of the result array is in point `t`'s block iff each coordinate is in the block's range on its axis. -/
theorem mem_blk4 (t : Fin cfg0.N) (i : S100x4x128x128.Idx) :
    i ∈ ((cfg0.win 4).blk t).view.set ↔ ∀ a : Fin 4, win0_4.index t a * S1x4x128x128.size a ≤ (i a).val
      ∧ (i a).val < win0_4.index t a * S1x4x128x128.size a + S1x4x128x128.size a := by
  show i ∈ ((View.whole main_v3).slice (win0_4.rect t)).set ↔ _
  rw [View.set_slice_whole, Rect.mem_set_unit]
  exact Iff.rfl

/-- THE RESULT ARRAY after the run is the specification: slab `c` is point `c`'s block. -/
theorem final (c : Dev nD) : (dats m 0 c).arrAt 4 cfg0.N = G (X m c) (Y m c) (MU m c) (COV m c) :=
  (dats m 0 c).arrAt_eq_of_cover 4 (G (X m c) (Y m c) (MU m c) (COV m c)) (fun t _ => flushed_eq m c t) fun i => by
    have hi0 : (i 0).val < 100 := (i 0).isLt
    have hi1 : (i 1).val < 4 := (i 1).isLt
    have hi2 : (i 2).val < 128 := (i 2).isLt
    have hi3 : (i 3).val < 128 := (i 3).isLt
    let t : Fin cfg0.N := ⟨(i 0).val, lt_of_lt_of_eq hi0 (show cfg0.N = 100 from N_0).symm⟩
    obtain ⟨-, -, -, -, -, -, -, -, -, -, e0, e1, e2, e3⟩ := idx_facts t
    refine ⟨t, flush0_4 t, ?_⟩
    rw [mem_blk4]
    intro a
    match a with
    | ⟨0, _⟩ => show win0_4.index t 0 * 1 ≤ (i 0).val ∧ (i 0).val < win0_4.index t 0 * 1 + 1; rw [e0]; show (i 0).val * 1 ≤ (i 0).val ∧ (i 0).val < (i 0).val * 1 + 1; omega
    | ⟨1, _⟩ => show win0_4.index t 1 * 4 ≤ (i 1).val ∧ (i 1).val < win0_4.index t 1 * 4 + 4; rw [e1]; omega
    | ⟨2, _⟩ => show win0_4.index t 2 * 128 ≤ (i 2).val ∧ (i 2).val < win0_4.index t 2 * 128 + 128; rw [e2]; omega
    | ⟨3, _⟩ => show win0_4.index t 3 * 128 ≤ (i 3).val ∧ (i 3).val < win0_4.index t 3 * 128 + 128; rw [e3]; omega

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v3) = G (X m c) (Y m c) (MU m c) (COV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.LibScatterRows.lean ====
/-
  A float scatter-add of ROWS, read at an index, at the ideal values.

  The scatter `operand[idx[b, 0], :] += updates[b, :]` — operand `[N, W]`, scatter indices `[B, 1]`, updates `[B, W]`,
  update window axis `[1]`, inserted window axis `[0]`, scatter-dims-to-operand-dims `[0]`, index vector axis `1` — is what
  `jax.ops.segment_sum` and `x.at[idx].add(v)` of a rank-2 array lower to. Update element `(b, n')` lands on operand
  element `(idx[b, 0], n')` when the index, read signed, is a row of the operand, and is dropped otherwise. So at the
  extended reals element `(c, n)` of the result is the operand's plus the sum over ALL rows `b` of the updates of
  `updates[b, n]` where `idx[b, 0] = c` and of zero elsewhere: a masked sum over the batch, the form a kernel that
  multiplies by a `0/1` mask and contracts the batch axis computes.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

variable {N B W w : Nat}

/-- The dimension numbers of a row scatter over operand `[N, W]`, scatter indices `[B, 1]` and updates `[B, W]`; their
    conditions `wf` are decided on a program's literal shapes. -/
abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

/-- The scatter-indices index `[b, 0]` that update row `b` reads its start from. -/
abbrev rowIdx (b : Fin B) : (⟨2, ![B, 1]⟩ : Shape).Idx := ix2 b ⟨0, Nat.one_pos⟩

/-- On the row axis the window starts at the scatter index of the update's row, read signed. -/
theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

/-- On the column axis, which the index map does not name, the window starts at zero. -/
theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

/-- The row axis is inserted: no window coordinate on it. -/
theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

/-- The column axis carries the update's column. -/
theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

/-- WHERE AN UPDATE LANDS: update element `j = (b, n')` lands on operand element `i = (c, n)` exactly when the scatter
    index of row `b`, read signed, is `c` and the columns agree. -/
theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  have hi0 : (i 0).val < N := (i 0).isLt
  have hi1 : (i 1).val < W := (i 1).isLt
  have hj1 : (j 1).val < W := (j 1).isLt
  unfold ScatterDims.resultIdx?
  split
  · rename_i h
    constructor
    · intro he
      have he' := Option.some.inj he
      have h0 := congrArg (fun f => (f 0).val) he'
      have h1 := congrArg (fun f => (f 1).val) he'
      have hb0 := h 0
      have hb1 := h 1
      simp only [start_row, start_col, window_row, window_col] at h0 h1 hb0 hb1
      constructor <;> omega
    · rintro ⟨h0, h1⟩
      congr 1
      funext a
      refine Fin.ext ?_
      match a with
      | ⟨0, _⟩ =>
        show ((rowDims N B W wf).start j idx 0 + ((rowDims N B W wf).window j 0 : Int)).toNat = (i 0).val
        rw [start_row, window_row]; omega
      | ⟨1, _⟩ =>
        show ((rowDims N B W wf).start j idx 1 + ((rowDims N B W wf).window j 1 : Int)).toNat = (i 1).val
        rw [start_col, window_col]; omega
  · rename_i h
    constructor
    · intro he; exact absurd he (by simp)
    · rintro ⟨h0, h1⟩
      exfalso; apply h
      intro a
      match a with
      | ⟨0, _⟩ =>
        show 0 ≤ (rowDims N B W wf).start j idx 0 + ((rowDims N B W wf).window j 0 : Int)
          ∧ (rowDims N B W wf).start j idx 0 + ((rowDims N B W wf).window j 0 : Int) < (N : Int)
        rw [start_row, window_row]; omega
      | ⟨1, _⟩ =>
        show 0 ≤ (rowDims N B W wf).start j idx 1 + ((rowDims N B W wf).window j 1 : Int)
          ∧ (rowDims N B W wf).start j idx 1 + ((rowDims N B W wf).window j 1 : Int) < (W : Int)
        rw [start_col, window_col]; omega

/-- THE SCATTER-ADD OF ROWS READ AT `(c, n)`, at the ideal values: the operand there plus, over every update row `b`,
    the update `(b, n)` where row `b`'s scatter index is `c` and zero where it is not. An index outside `[0, N)` equals
    no `c`, so its row contributes nothing. -/
theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.RefValue.lean ====
/-
  The reference's result is the specification.

  The reference forms the centred samples `d[b, m, h] = x[b, h] - mu[0, m, h]`, their outer products
  `d[b, m, p] · d[b, m, q]`, flattens each sample's products to a row of 65536, scatter-adds the rows into a zero
  `[100, 65536]` array at the samples' labels, unflattens, and adds `cov`. Read at `(c, m, p, q)`: the flat column is
  `n = (m · 128 + p) · 128 + q`; the scatter-add of rows there is zero plus the sum over all samples `b` of row `b`'s
  column `n` where `y[b] = c` and of zero elsewhere; row `b`'s column `n` unflattens back to `d[b, m, p] · d[b, m, q]`.
-/
import proofs.«403243_j47614007444058_1_alg».proof.Proof.Gen.ReferenceIdeal.Run
import proofs.«403243_j47614007444058_1_alg».proof.Proof.Gen.ReferenceIdeal.Read
import proofs.«403243_j47614007444058_1_alg».proof.Proof.LibScatterRows
import proofs.«403243_j47614007444058_1_alg».proof.Proof.Spec
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Cert.ClassCov
open Idealize.ShloMosaic Idealize.ShloMosaic.ValueIdx Idealize.ShloMosaic.ScatterRows

/-! ## The printed index maps at coordinates -/

theorem e0 (b : Fin 2048) (h : Fin 128) : idx_main_v0 (ix3 b ⟨0, Nat.one_pos⟩ h) = ix2 b h :=
  funext fun a => Fin.ext (by match a with | ⟨0, _⟩ => rfl | ⟨1, _⟩ => rfl)
theorem e4 (b : Fin 2048) (m : Fin 4) (h : Fin 128) : idx_main_v4 (ix3 b m h) = ix3 b ⟨0, Nat.one_pos⟩ h :=
  funext fun a => Fin.ext (by match a with | ⟨0, _⟩ => rfl | ⟨1, _⟩ => rfl | ⟨2, _⟩ => rfl)
theorem e5 (b : Fin 2048) (m : Fin 4) (h : Fin 128) : idx_main_v5 (ix3 b m h) = ix3 ⟨0, Nat.one_pos⟩ m h :=
  funext fun a => Fin.ext (by match a with | ⟨0, _⟩ => rfl | ⟨1, _⟩ => rfl | ⟨2, _⟩ => rfl)
theorem e3 (m : Fin 4) (h : Fin 128) : idx_main_v3 (ix3 ⟨0, Nat.one_pos⟩ m h) = ix2 m h :=
  funext fun a => Fin.ext (by match a with | ⟨0, _⟩ => rfl | ⟨1, _⟩ => rfl)
theorem e2 (m : Fin 4) (h : Fin 128) : idx_main_v2 (ix2 m h) = ix3 ⟨0, Nat.one_pos⟩ m h :=
  funext fun a => Fin.ext (by
    have hm := m.isLt; have hh := h.isLt
    match a with
    | ⟨0, _⟩ => rfl
    | ⟨1, _⟩ => show (m.val * 128 + h.val) / 128 % 4 = m.val; omega
    | ⟨2, _⟩ => show (m.val * 128 + h.val) % 128 = h.val; omega)
theorem e1 (m : Fin 4) (h : Fin 128) : idx_main_v1 (ix3 ⟨0, Nat.one_pos⟩ m h) = ix3 ⟨0, by decide⟩ m h :=
  funext fun a => Fin.ext (by match a with | ⟨0, _⟩ => rfl | ⟨1, _⟩ => rfl | ⟨2, _⟩ => rfl)
theorem e7 (b : Fin 2048) (m : Fin 4) (p : Fin 128) : idx_main_v7 (ix4 b m p ⟨0, Nat.one_pos⟩) = ix3 b m p :=
  funext fun a => Fin.ext (by match a with | ⟨0, _⟩ => rfl | ⟨1, _⟩ => rfl | ⟨2, _⟩ => rfl)
theorem e8 (b : Fin 2048) (m : Fin 4) (q : Fin 128) : idx_main_v8 (ix4 b m ⟨0, Nat.one_pos⟩ q) = ix3 b m q :=
  funext fun a => Fin.ext (by match a with | ⟨0, _⟩ => rfl | ⟨1, _⟩ => rfl | ⟨2, _⟩ => rfl)
theorem e9 (b : Fin 2048) (m : Fin 4) (p q : Fin 128) : idx_main_v9 (ix4 b m p q) = ix4 b m p ⟨0, Nat.one_pos⟩ :=
  funext fun a => Fin.ext (by match a with | ⟨0, _⟩ => rfl | ⟨1, _⟩ => rfl | ⟨2, _⟩ => rfl | ⟨3, _⟩ => rfl)
theorem e10 (b : Fin 2048) (m : Fin 4) (p q : Fin 128) : idx_main_v10 (ix4 b m p q) = ix4 b m ⟨0, Nat.one_pos⟩ q :=
  funext fun a => Fin.ext (by match a with | ⟨0, _⟩ => rfl | ⟨1, _⟩ => rfl | ⟨2, _⟩ => rfl | ⟨3, _⟩ => rfl)

/-- The flat column of entry `(m, p, q)`. -/
abbrev col (m : Fin 4) (p q : Fin 128) : Fin 65536 := ⟨(m.val * 128 + p.val) * 128 + q.val, by
  have := m.isLt; have := p.isLt; have := q.isLt; omega⟩

theorem e12 (b : Fin 2048) (m : Fin 4) (p q : Fin 128) : idx_main_v12 (ix2 b (col m p q)) = ix4 b m p q :=
  funext fun a => Fin.ext (by
    have hb := b.isLt; have hm := m.isLt; have hp := p.isLt; have hq := q.isLt
    match a with
    | ⟨0, _⟩ => show (b.val * 65536 + ((m.val * 128 + p.val) * 128 + q.val)) / 65536 = b.val; omega
    | ⟨1, _⟩ => show (b.val * 65536 + ((m.val * 128 + p.val) * 128 + q.val)) / 16384 % 4 = m.val; omega
    | ⟨2, _⟩ => show (b.val * 65536 + ((m.val * 128 + p.val) * 128 + q.val)) / 128 % 128 = p.val; omega
    | ⟨3, _⟩ => show (b.val * 65536 + ((m.val * 128 + p.val) * 128 + q.val)) % 128 = q.val; omega)
theorem e14 (b : Fin 2048) : idx_main_v14 (rowIdx b) = ix1 b :=
  funext fun a => Fin.ext (by match a with | ⟨0, _⟩ => rfl)
theorem e16 (c : Fin 100) (m : Fin 4) (p q : Fin 128) : idx_main_v16 (ix4 c m p q) = ix2 c (col m p q) :=
  funext fun a => Fin.ext (by
    have hc := c.isLt; have hm := m.isLt; have hp := p.isLt; have hq := q.isLt
    match a with
    | ⟨0, _⟩ => show (((c.val * 4 + m.val) * 128 + p.val) * 128 + q.val) / 65536 = c.val; omega
    | ⟨1, _⟩ => show (((c.val * 4 + m.val) * 128 + p.val) * 128 + q.val) % 65536 = (m.val * 128 + p.val) * 128 + q.val; omega)

/-! ## The stages at coordinates -/

/-- The centred samples. -/
theorem v6_apply (x0 : (⟨S2048x128, .f32⟩ : BufTy).Contents (Elt Ideal)) (x2 : (⟨S100x4x128, .f32⟩ : BufTy).Contents (Elt Ideal))
    (b : Fin 2048) (m : Fin 4) (h : Fin 128) : val_main_v6 (F := Ideal) x0 x2 (ix3 b m h) = dev x0 x2 b m h := by
  rw [val_main_v6_apply, val_main_v4_apply, e4, val_main_v0_apply, e0, val_main_v5_apply, e5, val_main_v3_apply, e3,
    val_main_v2_apply, e2, val_main_v1_apply, e1]
  rfl

/-- A sample's flattened outer product at the column of `(m, p, q)`. -/
theorem v12_apply (x0 : (⟨S2048x128, .f32⟩ : BufTy).Contents (Elt Ideal)) (x2 : (⟨S100x4x128, .f32⟩ : BufTy).Contents (Elt Ideal))
    (b : Fin 2048) (m : Fin 4) (p q : Fin 128) :
    val_main_v12 (F := Ideal) x0 x2 (ix2 b (col m p q)) = dev x0 x2 b m p * dev x0 x2 b m q := by
  rw [val_main_v12_apply, e12, val_main_v11_apply, val_main_v9_apply, e9, val_main_v7_apply, e7, v6_apply,
    val_main_v10_apply, e10, val_main_v8_apply, e8, v6_apply]
  rfl

/-- The scatter's operand is zero. -/
theorem v13_apply (i : S100x65536.Idx) : val_main_v13 (F := Ideal) i = 0 := by
  rw [val_main_v13_apply, val_main_cst_apply]
  exact Ideal.ofBits_zero_f32

/-- The printed dimension numbers are the row scatter's. -/
theorem dims_eq : scatter_S100x65536_S2048x1_S2048x65536_1_0_0_1
    = rowDims 100 2048 65536 Cert.ReferenceIdeal.Gen.scatter_S100x65536_S2048x1_S2048x65536_1_0_0_1_wf := rfl

/-- THE REFERENCE IS THE SPECIFICATION. -/
theorem result_eq (x0 : (⟨S2048x128, .f32⟩ : BufTy).Contents (Elt Ideal)) (x1 : (⟨S2048, .i32⟩ : BufTy).Contents (Elt Ideal))
    (x2 : (⟨S100x4x128, .f32⟩ : BufTy).Contents (Elt Ideal)) (x3 : (⟨S100x4x128x128, .f32⟩ : BufTy).Contents (Elt Ideal)) :
    val_main_v17 (F := Ideal) x0 x1 x2 x3 = G x0 x1 x2 x3 := by
  funext i
  obtain ⟨c, m, p, q, rfl⟩ : ∃ (c : Fin 100) (m : Fin 4) (p q : Fin 128), i = ix4 c m p q := ⟨i 0, i 1, i 2, i 3, eq_ix4 i⟩
  rw [val_main_v17_apply, val_main_v16_apply, e16, G_ix4]
  unfold val_main_v15 covAt
  show x3 (ix4 c m p q) + Ideal.hostScatterAdd scatter_S100x65536_S2048x1_S2048x65536_1_0_0_1 (val_main_v13 (F := Ideal))
    (val_main_v14 (F := Ideal) x1) (val_main_v12 (F := Ideal) x0 x2) (ix2 c (col m p q)) = _
  rw [dims_eq, hostScatterAdd_rows_apply, v13_apply, zero_add]
  congr 1
  refine Finset.sum_congr rfl fun b _ => ?_
  rw [val_main_v14_apply, e14, v12_apply]

end Cert.ReferenceIdeal.Hand

end
-- ==== Proof.lean ====
/-
  The kernel accumulates class-wise covariances: for each class `c` (one grid point each) and each of four centres `m`,
  `out[c, m] = cov[c, m] + (D_m · 1[y = c])ᵀ D_m` with `D_m[b, :] = x[b, :] - mu[0, m, :]`, the batch axis contracted on the
  matrix unit over bf16 operands. The reference forms every sample's outer product `D_m[b, p] · D_m[b, q]` and adds the
  samples' products into their labels' rows by a scatter-add (`segment_sum`), then adds `cov`.
  At the extended reals both are `cov[c, m, p, q] + ∑ b, (D_m[b, p] · D_m[b, q] where y[b] = c, else 0)` (Proof/Spec.lean): the
  roundings to bf16 are the identity, the matrix product into a zero accumulator and the scatter-add into a zero array are
  exact sums, the `0/1` mask multiplies as `a · 1 = a`, `a · 0 = 0` for every extended real `a` (no finiteness is needed),
  and a label outside `[0, 100)` equals no grid position and lands on no row. The kernel's side is Proof/KernelCore.lean,
  KernelValue.lean and KernelRun.lean; the scatter-add of rows read at an index is Proof/LibScatterRows.lean; the reference's side
  Proof/RefValue.lean over the generated run. The frames of the two kernel programs are the generated frame proofs with the
  grid position bound in the stored value (Proof/KernelFrame.lean, KernelIdealFrame.lean); the reference's frame is its
  generated run with the result dropped. The idealization rewrote nothing, so `preserves` is trivial.
-/
import proofs.«403243_j47614007444058_1_alg».proof.Defs
import proofs.«403243_j47614007444058_1_alg».proof.Proof.Gen.Kernel
import proofs.«403243_j47614007444058_1_alg».proof.Proof.Gen.Kernel.Skeleton
import proofs.«403243_j47614007444058_1_alg».proof.Proof.Gen.Kernel.Launch
import proofs.«403243_j47614007444058_1_alg».proof.Proof.Gen.Kernel.Points
import proofs.«403243_j47614007444058_1_alg».proof.Proof.KernelFrame
import proofs.«403243_j47614007444058_1_alg».proof.Proof.Gen.KernelIdeal
import proofs.«403243_j47614007444058_1_alg».proof.Proof.Gen.KernelIdeal.Skeleton
import proofs.«403243_j47614007444058_1_alg».proof.Proof.Gen.KernelIdeal.Launch
import proofs.«403243_j47614007444058_1_alg».proof.Proof.Gen.KernelIdeal.Points
import proofs.«403243_j47614007444058_1_alg».proof.Proof.KernelIdealFrame
import proofs.«403243_j47614007444058_1_alg».proof.Proof.Gen.ReferenceIdeal
import proofs.«403243_j47614007444058_1_alg».proof.Proof.Gen.ReferenceIdeal.Run
import proofs.«403243_j47614007444058_1_alg».proof.Proof.Gen.ReferenceIdeal.Read
import proofs.«403243_j47614007444058_1_alg».proof.Proof.Gen.Pre_finite_inputs
import proofs.«403243_j47614007444058_1_alg».proof.Proof.KernelRun
import proofs.«403243_j47614007444058_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification of the arguments, which agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq (F := Ideal) _ _ _ _).trans ?_
  rw [Cert.ReferenceIdeal.Hand.result_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
